-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel

variable [Facts]

def fn {F : FTy → Type} [FloatOps F] (main_arg0 : FVec F S8388608x8 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  main_v3
-- ==== Kernel.lean ====
abbrev S8388608x8 : Shape := ⟨2, ![8388608, 8]⟩
abbrev S8388608 : Shape := ⟨1, ![8388608]⟩
abbrev S32768x8 : Shape := ⟨2, ![32768, 8]⟩
abbrev S32768 : Shape := ⟨1, ![32768]⟩
abbrev S32768x1 : Shape := ⟨2, ![32768, 1]⟩

abbrev nBuf : Space → Nat
  | .hbm => 2
  | .vmem => 4
  | .smem => 0
  | _ => 0

abbrev bufTy : (tb : Table) → Fin (tcTables nBuf tb) → BufTy
  | .hbm, ⟨0, _⟩ => ⟨S8388608x8, .f32⟩
  | .hbm, ⟨1, _⟩ => ⟨S8388608, .f32⟩
  | .local _ .vmem, ⟨0, _⟩ => ⟨S32768x8, .f32⟩
  | .local _ .vmem, ⟨1, _⟩ => ⟨S32768x8, .f32⟩
  | .local _ .vmem, ⟨2, _⟩ => ⟨S32768, .f32⟩
  | .local _ .vmem, ⟨3, _⟩ => ⟨S32768, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32768x8_S32768x8_0_0 : ∀ a, (![0, 0] : Fin 2 → Nat) a + S32768x8.size a ≤ S32768x8.size a
  h_S32768x8 : 0 < S32768x8.numel
  slices_S32768x8_o0_0_S32768x1 : S32768x8.Slices ![0, 0] S32768x1
  shapeCasts_S32768x1_S32768 : S32768x1.ShapeCasts S32768
  slices_S32768x8_o0_1_S32768x1 : S32768x8.Slices ![0, 1] S32768x1
  slices_S32768x8_o0_2_S32768x1 : S32768x8.Slices ![0, 2] S32768x1
  slices_S32768x8_o0_3_S32768x1 : S32768x8.Slices ![0, 3] S32768x1
  slices_S32768x8_o0_4_S32768x1 : S32768x8.Slices ![0, 4] S32768x1
  slices_S32768x8_o0_5_S32768x1 : S32768x8.Slices ![0, 5] S32768x1
  slices_S32768x8_o0_6_S32768x1 : S32768x8.Slices ![0, 6] S32768x1
  slices_S32768x8_o0_7_S32768x1 : S32768x8.Slices ![0, 7] S32768x1
  inb_S32768_S32768_0 : ∀ a, (![0] : Fin 1 → Nat) a + S32768.size a ≤ S32768.size a
  h_S32768 : 0 < S32768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x8.size a ≤ S8388608x8.size a
  hwx0_0 : ∀ i : grid0.Coords, EltTy.bits .f32 = 32 ∨ (Rect.block (s := S8388608x8) S32768x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768.size a ≤ S8388608.size a
  hwx0_1 : ∀ i : grid0.Coords, EltTy.bits .f32 = 32 ∨ (Rect.block (s := S8388608) S32768.size (cc0_transform_1 i) (hinb0_1 i)).WholeWords (EltTy.packing .f32)

variable [Facts₀]

abbrev win0_0 : Pipeline.Window sig grid0 :=
  Pipeline.Window.ofSpec (Memref.whole main_arg0) S32768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S8388608 : Shape := ⟨1, ![8388608]⟩

abbrev nBuf : Space → Nat
  | .hbm => 31
  | .vmem => 0
  | .smem => 0
  | _ => 0

abbrev bufTy : (tb : Table) → Fin (tcTables nBuf tb) → BufTy
  | .hbm, ⟨0, _⟩ => ⟨S8388608x8, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608x1, .f32⟩
  | .hbm, ⟨12, _⟩ => ⟨S8388608, .f32⟩
  | .hbm, ⟨13, _⟩ => ⟨S8388608x1, .f32⟩
  | .hbm, ⟨14, _⟩ => ⟨S8388608, .f32⟩
  | .hbm, ⟨15, _⟩ => ⟨S8388608x1, .f32⟩
  | .hbm, ⟨16, _⟩ => ⟨S8388608, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩

abbrev nD : Nat := 1
abbrev τ : Topo := Topo.v7x

variable {F : FTy → Type} [FloatOps F]

class Facts₀ : Prop where
  slices_S8388608x8_S8388608x1_0_0 : S8388608x8.Slices ![0, 0] S8388608x1
  shapeCasts_S8388608x1_S8388608 : S8388608x1.ShapeCasts S8388608
  slices_S8388608x8_S8388608x1_0_1 : S8388608x8.Slices ![0, 1] S8388608x1
  slices_S8388608x8_S8388608x1_0_2 : S8388608x8.Slices ![0, 2] S8388608x1
  slices_S8388608x8_S8388608x1_0_3 : S8388608x8.Slices ![0, 3] S8388608x1
  slices_S8388608x8_S8388608x1_0_4 : S8388608x8.Slices ![0, 4] S8388608x1
  slices_S8388608x8_S8388608x1_0_5 : S8388608x8.Slices ![0, 5] S8388608x1
  slices_S8388608x8_S8388608x1_0_6 : S8388608x8.Slices ![0, 6] S8388608x1
  slices_S8388608x8_S8388608x1_0_7 : S8388608x8.Slices ![0, 7] S8388608x1

variable [Facts₀]

class Facts : Prop extends Facts₀ where

variable [Facts]
-- ==== Proof.RowFormula.lean ====
/-
  The function both programs compute, on the extended reals.

  Each row of the input holds eight numbers `a b c d e f g h` (columns 0 to 7) and yields one number,

      tanh( (a·b + sin c) · exp(−|d|)  +  e / (f·f + exp g)  −  h ),

  where `|d|` is `max d (−d)`, the quotient is the extended reals' total quotient, and `sin`, `exp`, `tanh` are the
  extended-real readings of the three functions. The result array holds, at position `p`, that number for row `p`:
  no entry depends on any row but its own, so a block of rows of the input determines the same block of the result.
-/
import Idealize.ShloMosaic.PureOps.Ideal
import Idealize.ShloMosaic.PureOps.Ideal.Laws
import Idealize.ShloMosaic.Lib.ValueIdx

noncomputable section

namespace RowFormula

open Idealize.ShloMosaic Idealize.ShloMosaic.ValueIdx

/-- The number one row yields, from the row's eight entries. -/
def rowValue (a b c d e f g h : EReal) : EReal :=
  Ideal.tanh ((a * b + Ideal.sin c) * Ideal.exp (-(max d (-d))) + Ideal.div e (f * f + Ideal.exp g) - h)

/-- The number row `p` of an `[n, 8]` matrix yields. -/
def rowOf {n : ℕ} (x : (⟨2, ![n, 8]⟩ : Shape).Idx → EReal) (p : Fin n) : EReal :=
  rowValue (x (ix2 p (0 : Fin 8))) (x (ix2 p (1 : Fin 8))) (x (ix2 p (2 : Fin 8))) (x (ix2 p (3 : Fin 8)))
    (x (ix2 p (4 : Fin 8))) (x (ix2 p (5 : Fin 8))) (x (ix2 p (6 : Fin 8))) (x (ix2 p (7 : Fin 8)))

/-- The whole result: a vector of length `n`, entry `p` the number row `p` yields. -/
def rowsValue {n : ℕ} (x : (⟨2, ![n, 8]⟩ : Shape).Idx → EReal) : (⟨1, ![n]⟩ : Shape).Idx → EReal :=
  fun i => rowOf x (i 0)

/-- A row's number depends on the row's eight entries only: two matrices, of any heights, that agree on row `p` of
    the one and row `p'` of the other, column by column, yield the same number there. -/
theorem rowOf_congr {n n' : ℕ} (x : (⟨2, ![n, 8]⟩ : Shape).Idx → EReal) (x' : (⟨2, ![n', 8]⟩ : Shape).Idx → EReal)
    (p : Fin n) (p' : Fin n') (h : ∀ k : Fin 8, x (ix2 p k) = x' (ix2 p' k)) : rowOf x p = rowOf x' p' := by
  unfold rowOf
  rw [h 0, h 1, h 2, h 3, h 4, h 5, h 6, h 7]

/-- Subtracting from the zero word's value is negation: `0 − y = −y` on the extended reals. -/
theorem zero_word_sub (y : EReal) : Ideal.ofBits .f32 0x00000000#32 - y = -y := by
  rw [Ideal.ofBits_zero_f32, zero_sub]

end RowFormula

end
-- ==== Proof.KernelRows.lean ====
/-
  The kernel, read row by row.

  The grid has 256 points; point `t` is handed rows `32768·t … 32768·t + 32767` of the input (an `[32768, 8]` block,
  all eight columns) and writes entries `32768·t … 32768·t + 32767` of the result. The body cuts the block into its
  eight columns and combines them entry by entry, so what it leaves at position `y` of the output block is the row
  formula of row `y` of the input block — the same number the whole-array function has at `32768·t + y`, because row
  `y` of block `t` IS row `32768·t + y` of the input. The 256 output blocks tile the result (entry `i` lies in block
  `i / 32768`), so after the run the result array is the row formula of every row.
  The body spells `−|d|` as `0 − |d|`; on the extended reals the two are one number.
-/
import proofs.«169740_j82643760709953_1_alg».proof.Proof.Gen.KernelIdeal.Value
import proofs.«169740_j82643760709953_1_alg».proof.Proof.RowFormula

noncomputable section

namespace Cert.KernelIdeal.Rows

open Cert.KernelIdeal Cert.KernelIdeal.Gen Idealize.ShloMosaic Idealize.ShloMosaic.TcCoe Idealize.SL.Sem
open Idealize.ShloMosaic.Pipeline (Dat)
open Idealize.ShloMosaic.ValueIdx RowFormula

variable (m : (ℓ : Loc nD τ sig) → Buf (Elt Ideal) ℓ) (ρ : Dev nD → PrngReg)

theorem zero_offsets : (![0, 0] : Fin 2 → Nat) = fun _ => 0 := funext fun a => by fin_cases a <;> rfl

/-- Where the body reads column `k` for output position `y`: row `y`, column `k` of the block. -/
theorem read_at (y : S32768.Idx) :
    Value.ix1_0 y = ix2 (y 0) (0 : Fin 8) ∧ Value.ix1_1 y = ix2 (y 0) (1 : Fin 8) ∧ Value.ix1_2 y = ix2 (y 0) (2 : Fin 8)
    ∧ Value.ix1_3 y = ix2 (y 0) (3 : Fin 8) ∧ Value.ix1_4 y = ix2 (y 0) (4 : Fin 8) ∧ Value.ix1_5 y = ix2 (y 0) (5 : Fin 8)
    ∧ Value.ix1_6 y = ix2 (y 0) (5 : Fin 8) ∧ Value.ix1_7 y = ix2 (y 0) (6 : Fin 8) ∧ Value.ix1_8 y = ix2 (y 0) (7 : Fin 8) := by
  refine ⟨?_, ?_, ?_, ?_, ?_, ?_, ?_, ?_, ?_⟩ <;> funext a <;> match a with | ⟨0, _⟩ => rfl | ⟨1, _⟩ => rfl

/-- What the body leaves at position `y` of its output block is the row formula of row `y` of its input block. -/
theorem block_rows (P0 : Vec Ideal S32768x8 .f32) (y : S32768.Idx) : out0_1 P0 y = rowOf P0 (y 0) := by
  unfold out0_1
  rw [View.ld_unit_zero (S := S32768x8) zero_offsets, Value.canon1_eq P0 y]
  obtain ⟨h0, h1, h2, h3, h4, h5, h6, h7, h8⟩ := read_at y
  show Ideal.tanh ((P0 (Value.ix1_0 y) * P0 (Value.ix1_1 y) + Ideal.sin (P0 (Value.ix1_2 y)))
      * Ideal.exp (Ideal.ofBits .f32 0x00000000#32 - max (P0 (Value.ix1_3 y)) (-(P0 (Value.ix1_3 y))))
      + Ideal.div (P0 (Value.ix1_4 y)) (P0 (Value.ix1_5 y) * P0 (Value.ix1_6 y) + Ideal.exp (P0 (Value.ix1_7 y)))
      - P0 (Value.ix1_8 y)) = _
  rw [h0, h1, h2, h3, h4, h5, h6, h7, h8, zero_word_sub]
  rfl

/-- The input window's block index at point `t`: block `t` of the rows, the one block of the columns. -/
theorem in_block_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- WHAT POINT `t` WRITES BACK is block `t` of the row formula of the whole input. -/
theorem flushed_rows (c : Dev nD) (t : Fin cfg0.N) :
    (dats m 0 c).flushed 1 t = ((cfg0.win 1).blk t).view.read (Elt Ideal) (rowsValue (V m c main_arg0)) := by
  rw [Value.flushed1]
  funext j
  show out0_1 (iblk m c 0 t) j = rowsValue (V m c main_arg0) (((cfg0.win 1).blk t).view.emb j)
  refine (block_rows (iblk m c 0 t) j).trans ?_
  show rowOf (iblk m c 0 t) (j 0) = rowOf (V m c main_arg0) ((((cfg0.win 1).blk t).view.emb j) 0)
  refine rowOf_congr _ _ _ _ (fun k => ?_)
  obtain ⟨e0, e1⟩ := in_block_index t
  have e2 := Value.idx_pt1 t
  unfold iblk
  rw [View.read_apply]
  show V m c main_arg0 _ = V m c main_arg0 _
  congr 1
  funext a
  apply Fin.ext
  match a with
  | ⟨0, _⟩ =>
    show win0_0.index t (0 : Fin 2) * 32768 + 1 * (j 0).val = win0_1.index t ⟨0, by decide⟩ * 32768 + 1 * (j 0).val
    rw [e0, e2]
  | ⟨1, _⟩ =>
    show win0_0.index t (1 : Fin 2) * 8 + 1 * k.val = k.val
    rw [e1]; omega

/-- An entry of the result lies in point `t`'s block exactly when its position is within `32768·t … 32768·t + 32767`. -/
theorem mem_block (t : Fin cfg0.N) (i : S8388608.Idx) :
    i ∈ ((cfg0.win 1).blk t).view.set ↔ ∀ a : Fin 1, win0_1.index t a * S32768.size a ≤ (i a).val ∧ (i a).val < win0_1.index t a * S32768.size a + S32768.size a := by
  show i ∈ ((View.whole main_v0).slice (win0_1.rect t)).set ↔ _
  rw [View.set_slice_whole, Rect.mem_set_unit]
  exact Iff.rfl

/-- The 256 blocks tile the result: entry `i` lies in the block of point `i / 32768`, and every point writes back. -/
theorem covered (i : S8388608.Idx) :
    ∃ t : Fin cfg0.N, (cfg0.win 1).flush t = true ∧ i ∈ ((cfg0.win 1).blk t).view.set := by
  have hi : (i 0).val < 8388608 := (i 0).isLt
  refine ⟨⟨(i 0).val / 32768, by rw [show cfg0.N = 256 from N_0]; omega⟩, flush0_1 _, ?_⟩
  rw [mem_block]
  intro a
  match a with
  | ⟨0, _⟩ =>
    show win0_1.index _ ⟨0, by decide⟩ * 32768 ≤ (i 0).val ∧ (i 0).val < win0_1.index _ ⟨0, by decide⟩ * 32768 + 32768
    rw [Value.idx_pt1]
    show (i 0).val / 32768 * 32768 ≤ (i 0).val ∧ (i 0).val < (i 0).val / 32768 * 32768 + 32768
    omega

/-- THE RESULT ARRAY after the run is the row formula of every row of the input as the region finds it. -/
theorem final_rows (c : Dev nD) : (dats m 0 c).arrAt 1 cfg0.N = rowsValue (V m c main_arg0) :=
  (dats m 0 c).arrAt_eq_of_cover 1 (rowsValue (V m c main_arg0)) (fun t _ => flushed_rows m c t) covered

/-- The kernel's run, read: the result array at the row formula of the argument, the argument unchanged. -/
theorem run : θ_run defs (onTc (τ := τ) (main (F := Ideal))) ⟨m, fun _ => 0, ρ⟩ fun r => ∀ c : Dev nD,
      r.2.mem ((c : Thread nD τ).loc main_v0) = rowsValue (m ((c : Thread nD τ).loc main_arg0))
      ∧ r.2.mem ((c : Thread nD τ).loc main_arg0) = m ((c : Thread nD τ).loc main_arg0) :=
  (θ_run defs _ _).mono (fun r h c => ⟨(h c).1.trans (final_rows m c), (h c).2⟩) (Value.run_blocks m ρ)

end Cert.KernelIdeal.Rows

end
-- ==== Proof.LibColumnPick.lean ====
/-
  One column of a matrix, taken out as a vector.

  A matrix `x` of `n` rows and `c` columns is cut to its column `k` (a slice of shape `[n, 1]` starting at
  `(0, k)`) and the unit axis is then dropped (a cast `[n, 1] → [n]`). The vector that results holds, at
  position `p`, the matrix entry `(p, k)`: the cast keeps the row-major position, which for an `[n, 1]` array is
  the row number, and the slice shifts the column coordinate by `k` and the row coordinate by nothing.
  Stated for any extents and any element type; nothing here mentions a program.
-/
import Idealize.ShloMosaic.Lib.ValueIdx
import Idealize.ShloMosaic.Lib.ValueLayout
import Idealize.ShloMosaic.Lib.Pipeline.Value

namespace ColumnPick

open Idealize.ShloMosaic Idealize.ShloMosaic.ValueIdx

variable {α : Type}

/-- An `[n, 1]` array cast to `[n]` reads, at `p`, the operand at `(p, 0)`: both have row-major position `p`. -/
theorem shapeCast_a1_a_apply {n : ℕ} (y : (⟨2, ![n, 1]⟩ : Shape).Idx → α)
    (hc : (⟨2, ![n, 1]⟩ : Shape).ShapeCasts ⟨1, ![n]⟩) (p : Fin n) :
    shapeCast ⟨1, ![n]⟩ y hc (ix1 p) = y (ix2 p (0 : Fin 1)) :=
  shapeCast_apply y hc _ _ (by
    rw [Shape.rowMajor_val_two, Shape.rowMajor_val_one]
    show p.val * 1 + 0 = p.val
    rw [Nat.mul_one, Nat.add_zero])

/-- Column `k` of an `[n, c]` matrix, sliced out as `[n, 1]` and cast to `[n]`, reads at `p` the entry `(p, q)`
    of the matrix, where `q` is the column `k` as a coordinate. -/
theorem column_apply {n c : ℕ} (k : ℕ) (x : (⟨2, ![n, c]⟩ : Shape).Idx → α)
    (hs : (⟨2, ![n, c]⟩ : Shape).Slices ![0, k] ⟨2, ![n, 1]⟩)
    (hc : (⟨2, ![n, 1]⟩ : Shape).ShapeCasts ⟨1, ![n]⟩) (p : Fin n) (q : Fin c) (hq : q.val = k) :
    shapeCast ⟨1, ![n]⟩ (extractStridedSlice ⟨2, ![n, 1]⟩ ![0, k] x hs) hc (ix1 p) = x (ix2 p q) :=
  (shapeCast_a1_a_apply _ hc p).trans
    (slice2_axis1_apply k x hs p (0 : Fin 1) q (by rw [hq]; rfl))

end ColumnPick
-- ==== Proof.ReferenceRows.lean ====
/-
  The reference, read row by row.

  The reference cuts the `[8388608, 8]` input into its eight columns (a slice `[8388608, 1]` and a reshape to
  `[8388608]` each), combines the columns entry by entry — products, sums, a difference, a quotient, `sin`, `exp`,
  `abs`, negation, `tanh` — and returns the vector. Column `k` at position `p` is the input's entry `(p, k)`, and
  every other operation acts on position `p` alone, so the vector's entry `p` is the row formula of row `p`.
  The host's `negate (abs d)` is `−max d (−d)`, the formula's own spelling.
-/
import proofs.«169740_j82643760709953_1_alg».proof.Proof.Gen.ReferenceIdeal.Run
import proofs.«169740_j82643760709953_1_alg».proof.Proof.RowFormula
import proofs.«169740_j82643760709953_1_alg».proof.Proof.LibColumnPick

noncomputable section

namespace Cert.ReferenceIdeal.Rows

open Cert.ReferenceIdeal Cert.ReferenceIdeal.Gen Idealize.ShloMosaic Idealize.ShloMosaic.ValueIdx RowFormula

/-- Column `k` of the input, as the reference cuts it out, holds at position `p` the input's entry `(p, k)`. -/
theorem column_at (k : ℕ) (x : FVec Ideal S8388608x8 .f32) (hs : S8388608x8.Slices ![0, k] S8388608x1)
    (p : Fin 8388608) (q : Fin 8) (hq : q.val = k) :
    shapeCast S8388608 (extractStridedSlice S8388608x1 ![0, k] x hs) shapeCasts_S8388608x1_S8388608 (ix1 p)
      = x (ix2 p q) :=
  ColumnPick.column_apply k x hs shapeCasts_S8388608x1_S8388608 p q hq

/-- The term the reference's run ends with is the row formula of every row of its argument. -/
theorem reference_rows (x : FVec Ideal S8388608x8 .f32) :
    Host.tanh (subf (addf (mulf (addf (mulf (shapeCast S8388608 (extractStridedSlice S8388608x1 ![0, 0] x slices_S8388608x8_S8388608x1_0_0) shapeCasts_S8388608x1_S8388608) (shapeCast S8388608 (extractStridedSlice S8388608x1 ![0, 1] x slices_S8388608x8_S8388608x1_0_1) shapeCasts_S8388608x1_S8388608)) (Host.sin (shapeCast S8388608 (extractStridedSlice S8388608x1 ![0, 2] x slices_S8388608x8_S8388608x1_0_2) shapeCasts_S8388608x1_S8388608))) (Host.exp (Host.negf (Host.absf (shapeCast S8388608 (extractStridedSlice S8388608x1 ![0, 3] x slices_S8388608x8_S8388608x1_0_3) shapeCasts_S8388608x1_S8388608))))) (Host.divf (shapeCast S8388608 (extractStridedSlice S8388608x1 ![0, 4] x slices_S8388608x8_S8388608x1_0_4) shapeCasts_S8388608x1_S8388608) (addf (mulf (shapeCast S8388608 (extractStridedSlice S8388608x1 ![0, 5] x slices_S8388608x8_S8388608x1_0_5) shapeCasts_S8388608x1_S8388608) (shapeCast S8388608 (extractStridedSlice S8388608x1 ![0, 5] x slices_S8388608x8_S8388608x1_0_5) shapeCasts_S8388608x1_S8388608)) (Host.exp (shapeCast S8388608 (extractStridedSlice S8388608x1 ![0, 6] x slices_S8388608x8_S8388608x1_0_6) shapeCasts_S8388608x1_S8388608))))) (shapeCast S8388608 (extractStridedSlice S8388608x1 ![0, 7] x slices_S8388608x8_S8388608x1_0_7) shapeCasts_S8388608x1_S8388608))
      = rowsValue x := by
  funext i
  obtain ⟨p, rfl⟩ : ∃ p : Fin 8388608, i = ix1 p := ⟨i 0, eq_ix1 i⟩
  show _ = rowOf x p
  unfold rowOf rowValue
  rw [← column_at 0 x slices_S8388608x8_S8388608x1_0_0 p 0 rfl, ← column_at 1 x slices_S8388608x8_S8388608x1_0_1 p 1 rfl,
    ← column_at 2 x slices_S8388608x8_S8388608x1_0_2 p 2 rfl, ← column_at 3 x slices_S8388608x8_S8388608x1_0_3 p 3 rfl,
    ← column_at 4 x slices_S8388608x8_S8388608x1_0_4 p 4 rfl, ← column_at 5 x slices_S8388608x8_S8388608x1_0_5 p 5 rfl,
    ← column_at 6 x slices_S8388608x8_S8388608x1_0_6 p 6 rfl, ← column_at 7 x slices_S8388608x8_S8388608x1_0_7 p 7 rfl]
  rfl

end Cert.ReferenceIdeal.Rows

end
-- ==== Proof.lean ====
/-
  The kernel and the reference compute one function of the `[8388608, 8]` input: entry `p` of the `[8388608]` result is

      tanh( (x₀·x₁ + sin x₂) · exp(−|x₃|)  +  x₄ / (x₅·x₅ + exp x₆)  −  x₇ )

  of row `p`'s eight entries `x₀ … x₇` (Proof/RowFormula.lean). The reference applies the operations to whole columns
  (Proof/ReferenceRows.lean); the kernel walks the rows in 256 blocks of 32768, applies the same operations to each
  block's columns and writes the matching block of the result, the blocks tiling it (Proof/KernelRows.lean). On the
  extended reals every operation of the one is the same function as its namesake of the other, and the kernel's
  `0 − |x₃|` is the reference's `−|x₃|`; no law that needs finite inputs is used, so the precondition is never opened.
  The three programs run, without a fault and leaving the argument as it was, by the generated frames (kernel) and
  the generated run (reference); the idealized kernel is the kernel's own text read on the extended reals, so there
  is nothing to preserve.
-/
import proofs.«169740_j82643760709953_1_alg».proof.Defs
import proofs.«169740_j82643760709953_1_alg».proof.Proof.Gen.Kernel
import proofs.«169740_j82643760709953_1_alg».proof.Proof.Gen.Kernel.Frame
import proofs.«169740_j82643760709953_1_alg».proof.Proof.Gen.KernelIdeal
import proofs.«169740_j82643760709953_1_alg».proof.Proof.Gen.KernelIdeal.Frame
import proofs.«169740_j82643760709953_1_alg».proof.Proof.Gen.KernelIdeal.Value
import proofs.«169740_j82643760709953_1_alg».proof.Proof.Gen.ReferenceIdeal
import proofs.«169740_j82643760709953_1_alg».proof.Proof.Gen.ReferenceIdeal.Run
import proofs.«169740_j82643760709953_1_alg».proof.Proof.Gen.Pre_finite_inputs
import proofs.«169740_j82643760709953_1_alg».proof.Proof.KernelRows
import proofs.«169740_j82643760709953_1_alg».proof.Proof.ReferenceRows
import Idealize.ShloMosaic.Adequacy
import Idealize.ShloMosaic.Init

noncomputable section

namespace Cert.Proof

open Idealize.ShloMosaic Idealize.SL.Sem

/-- The kernel, as printed, runs and leaves its argument as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument, the kernel's result array and the reference's both end at the row
    formula of that argument: the kernel's by its blocks, the reference's by its columns. -/
theorem algebraic : Cert.algebraic_KernelIdeal_ReferenceIdeal := by
  intro m ρ m' ρ' _ hagree
  refine ⟨fun c => RowFormula.rowsValue (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Rows.reference_rows _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
